-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x2048 : Shape := ⟨3, ![8, 2048, 2048]⟩
abbrev S64x64 : Shape := ⟨2, ![64, 64]⟩
abbrev S64 : Shape := ⟨1, ![64]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x64 .f32) (main_arg7 : FVec F S64 .f32) (main_v13 : IVec S_ 1) (main_v16 : IVec S8x2048x2048 1) : IVec S_ 1 :=
  let main_c_5 : IVec S_ 1 := constantI S_ 1 1#1
  let main_v17 : IVec S_ 1 := (fun x v => Host.reduce IntOp.andi x v reducesTo_S8x2048x2048_S_d0_1_2 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S8x2048x64 .f32) (main_arg1 : FVec F S8x2048x64 .f32) (main_arg2 : FVec F S8x2048x2048 .f32) (main_arg3 : FVec F S8x2048x2048 .f32) (main_arg4 : FVec F S64x64 .f32) (main_arg5 : FVec F S64 .f32) (main_arg6 : FVec F S64x64 .f32) (main_arg7 : FVec F S64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x2048x2048 .f32 := Host.absf main_arg3
  let main_cst_4 : FVec F S_ .f32 := constant S_ .f32 0x7F800000#32
  let main_v15 : FVec F S8x2048x2048 .f32 := broadcastInDim S8x2048x2048 ![] bcast_S_S8x2048x2048 main_cst_4
  let main_v16 : IVec S8x2048x2048 1 := cmpf .olt main_v14 main_v15
  fn_part1 (F := F) main_arg4 main_arg5 main_arg6 main_arg7 main_v13 main_v16
-- ==== Kernel.lean ====
abbrev S8x2048x64 : Shape := ⟨3, ![8, 2048, 64]⟩
abbrev S8x2048x2048 : Shape := ⟨3, ![8, 2048, 2048]⟩
abbrev S64x64 : Shape := ⟨2, ![64, 64]⟩
abbrev S64 : Shape := ⟨1, ![64]⟩
abbrev S8x64x2048 : Shape := ⟨3, ![8, 64, 2048]⟩
abbrev S1x64 : Shape := ⟨2, ![1, 64]⟩
abbrev S8x2048x128 : Shape := ⟨3, ![8, 2048, 128]⟩
abbrev S1x64x2048 : Shape := ⟨3, ![1, 64, 2048]⟩
abbrev S1x64x1024 : Shape := ⟨3, ![1, 64, 1024]⟩
abbrev S1x1024x2048 : Shape := ⟨3, ![1, 1024, 2048]⟩
abbrev S1x1024x128 : Shape := ⟨3, ![1, 1024, 128]⟩
abbrev S2048x64 : Shape := ⟨2, ![2048, 64]⟩
abbrev S64x2048 : Shape := ⟨2, ![64, 2048]⟩
abbrev S64x1024 : Shape := ⟨2, ![64, 1024]⟩
abbrev S1024x64 : Shape := ⟨2, ![1024, 64]⟩
abbrev S1024x2048 : Shape := ⟨2, ![1024, 2048]⟩
abbrev S1024 : Shape := ⟨1, ![1024]⟩
abbrev S1024x1 : Shape := ⟨2, ![1024, 1]⟩
abbrev S1x1024x64 : Shape := ⟨3, ![1, 1024, 64]⟩

abbrev nBuf : Space → Nat
  | .hbm => 13
  | .vmem => 16
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x2048, .f32⟩
  | .hbm, ⟨3, _⟩ => ⟨S8x2048x2048, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S8x64x2048, .f32⟩
  | .hbm, ⟨9, _⟩ => ⟨S8x64x2048, .f32⟩
  | .hbm, ⟨10, _⟩ => ⟨S1x64, .f32⟩
  | .hbm, ⟨11, _⟩ => ⟨S1x64, .f32⟩
  | .hbm, ⟨12, _⟩ => ⟨S8x2048x128, .f32⟩
  | .local _ .vmem, ⟨0, _⟩ => ⟨S1x64x2048, .f32⟩
  | .local _ .vmem, ⟨1, _⟩ => ⟨S1x64x2048, .f32⟩
  | .local _ .vmem, ⟨2, _⟩ => ⟨S1x64x1024, .f32⟩
  | .local _ .vmem, ⟨3, _⟩ => ⟨S1x64x1024, .f32⟩
  | .local _ .vmem, ⟨4, _⟩ => ⟨S1x1024x2048, .f32⟩
  | .local _ .vmem, ⟨5, _⟩ => ⟨S1x1024x2048, .f32⟩
  | .local _ .vmem, ⟨6, _⟩ => ⟨S1x1024x2048, .f32⟩
  | .local _ .vmem, ⟨7, _⟩ => ⟨S1x1024x2048, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S1x1024x128, .f32⟩
  | .local _ .vmem, ⟨13, _⟩ => ⟨S1x1024x128, .f32⟩
  | .local _ .vmem, ⟨14, _⟩ => ⟨S2048x64, .f32⟩
  | .local _ .vmem, ⟨15, _⟩ => ⟨S2048x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  transposes_S8x2048x64_S8x64x2048_0_2_1 : S8x2048x64.Transposes [0, 2, 1] S8x64x2048
  shapeCasts_S64_S1x64 : S64.ShapeCasts S1x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  transposes_S64x1024_p1_0_S1024x64 : S64x1024.Transposes [1, 0] S1024x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x64_S1024 : S1024x64.Reduces [1] S1024
  shapeCasts_S1024_S1024x1 : S1024.ShapeCasts S1024x1
  broadcasts_S1024x1_S1024x64 : S1024x1.Broadcasts S1024x64
  inb_S1x1024x128_S1x1024x64_0_0_0 : ∀ a, (![0, 0, 0] : Fin 3 → Nat) a + S1x1024x64.size a ≤ S1x1024x128.size a
  h_S1x1024x64 : 0 < S1x1024x64.numel
  shapeCasts_S1x1024x64_S1024x64 : S1x1024x64.ShapeCasts S1024x64
  shapeCasts_S1024x64_S1x1024x64 : S1024x64.ShapeCasts S1x1024x64
  inb_S1x1024x128_S1x1024x64_0_0_64 : ∀ a, (![0, 0, 64] : Fin 3 → Nat) a + S1x1024x64.size a ≤ S1x1024x128.size a
  dot_S64x2048_S64x64_S2048x64_0_0_1_1_n_n_wf : DotDims.WF S64x2048 S64x64 S2048x64 [0] [0] [1] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S8x64x2048.size a
  hwx0_0 : ∀ i : grid0.Coords, EltTy.bits .f32 = 32 ∨ (Rect.block (s := S8x64x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S8x64x2048.size a
  hwx0_1 : ∀ i : grid0.Coords, EltTy.bits .f32 = 32 ∨ (Rect.block (s := S8x64x2048) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x2048x2048.size a
  hwx0_2 : ∀ i : grid0.Coords, EltTy.bits .f32 = 32 ∨ (Rect.block (s := S8x2048x2048) S1x1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2048.size a ≤ S8x2048x2048.size a
  hwx0_3 : ∀ i : grid0.Coords, EltTy.bits .f32 = 32 ∨ (Rect.block (s := S8x2048x2048) S1x1024x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x128.size a ≤ S8x2048x128.size a
  hwx0_8 : ∀ i : grid0.Coords, EltTy.bits .f32 = 32 ∨ (Rect.block (s := S8x2048x128) S1x1024x128.size (cc0_transform_8 i) (hinb0_8 i)).WholeWords (EltTy.packing .f32)

variable [Facts₀]

def dot_S64x2048_S64x64_S2048x64_0_0_1_1_n_n : DotDims S64x2048 S64x64 S2048x64 where
  lhsContracting := [0]
  rhsContracting := [0]
  lhsNonContracting := [1]
  rhsNonContracting := [1]
  lhsBatch := []
  rhsBatch := []
  wf := dot_S64x2048_S64x64_S2048x64_0_0_1_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_call0_v0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1024x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩
abbrev S64x64 : Shape := ⟨2, ![64, 64]⟩
abbrev S64 : Shape := ⟨1, ![64]⟩
abbrev S1x1x64 : Shape := ⟨3, ![1, 1, 64]⟩
abbrev S_ : Shape := ⟨0, ![]⟩
abbrev S8x2048 : Shape := ⟨2, ![8, 2048]⟩
abbrev S8x2048x1 : Shape := ⟨3, ![8, 2048, 1]⟩
abbrev S8x2048x128 : Shape := ⟨3, ![8, 2048, 128]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x2048, .f32⟩
  | .hbm, ⟨3, _⟩ => ⟨S8x2048x2048, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S8x2048x64, .f32⟩
  | .hbm, ⟨9, _⟩ => ⟨S1x1x64, .f32⟩
  | .hbm, ⟨10, _⟩ => ⟨S8x2048x64, .f32⟩
  | .hbm, ⟨11, _⟩ => ⟨S8x2048x64, .f32⟩
  | .hbm, ⟨12, _⟩ => ⟨S8x2048x64, .f32⟩
  | .hbm, ⟨13, _⟩ => ⟨S8x2048x64, .f32⟩
  | .hbm, ⟨14, _⟩ => ⟨S1x1x64, .f32⟩
  | .hbm, ⟨15, _⟩ => ⟨S8x2048x64, .f32⟩
  | .hbm, ⟨16, _⟩ => ⟨S8x2048x64, .f32⟩
  | .hbm, ⟨17, _⟩ => ⟨S8x2048x64, .f32⟩
  | .hbm, ⟨18, _⟩ => ⟨S_, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048x1, .f32⟩
  | .hbm, ⟨24, _⟩ => ⟨S8x2048x64, .f32⟩
  | .hbm, ⟨25, _⟩ => ⟨S8x2048x64, .f32⟩
  | .hbm, ⟨26, _⟩ => ⟨S8x2048x64, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x64, .f32⟩
  | .hbm, ⟨31, _⟩ => ⟨S8x2048x64, .f32⟩
  | .hbm, ⟨32, _⟩ => ⟨S_, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S8x2048x1, .f32⟩
  | .hbm, ⟨38, _⟩ => ⟨S8x2048x64, .f32⟩
  | .hbm, ⟨39, _⟩ => ⟨S8x2048x64, .f32⟩
  | .hbm, ⟨40, _⟩ => ⟨S8x2048x64, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x64, .f32⟩
  | .hbm, ⟨45, _⟩ => ⟨S8x2048x64, .f32⟩
  | .hbm, ⟨46, _⟩ => ⟨S8x2048x64, .f32⟩
  | .hbm, ⟨47, _⟩ => ⟨S8x2048x64, .f32⟩
  | .hbm, ⟨48, _⟩ => ⟨S8x2048x128, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x2048x64_0_1_2 : S1x1x64.BroadcastsInDim S8x2048x64 (![0, 1, 2] : Fin 3 → Fin S8x2048x64.rank)
  reducesTo_S8x2048x64_S8x2048_d2 : S8x2048x64.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x64_0_1_2 : S8x2048x1.BroadcastsInDim S8x2048x64 (![0, 1, 2] : Fin 3 → Fin S8x2048x64.rank)
  concatenates_S8x2048x64_S8x2048x64_S8x2048x128_d2 : Shape.Concatenates [S8x2048x64, S8x2048x64] S8x2048x128 2
  dot_S8x2048x64_S64x64_S8x2048x64_2_0_01_1_n_n_wf : DotDims.WF S8x2048x64 S64x64 S8x2048x64 [2] [0] [0, 1] [1] [] []
  dot_S8x2048x2048_S8x2048x64_S8x2048x64_2_1_1_2_0_0_wf : DotDims.WF S8x2048x2048 S8x2048x64 S8x2048x64 [2] [1] [1] [2] [0] [0]

variable [Facts₀]

def dot_S8x2048x64_S64x64_S8x2048x64_2_0_01_1_n_n : DotDims S8x2048x64 S64x64 S8x2048x64 where
  lhsContracting := [2]
  rhsContracting := [0]
  lhsNonContracting := [0, 1]
  rhsNonContracting := [1]
  lhsBatch := []
  rhsBatch := []
  wf := dot_S8x2048x64_S64x64_S8x2048x64_2_0_01_1_n_n_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Spec.lean ====
/-
  The function both programs compute, stated once over the argument arrays.

  For node features `x : [8, 2048, 64]`, a weight `W : [64, 64]` and a bias `β : [64]` the projected features are
  `proj x W β b m d = (∑ e, x[b, m, e] · W[e, d]) + β[d]`; an adjacency `A : [8, 2048, 2048]` aggregates them into the
  scores `score A x W β b n d = ∑ m, A[b, n, m] · proj x W β b m d`; each row of 64 scores is turned into weights by
  `softRow a d = exp (a d − max a) / ∑ k, exp (a k − max a)`, the maximum taken from `−∞` upwards; the weights scale the
  dynamic feature, `gated D A x W β b n d = D[b, n, d] · softRow (score A x W β b n) d`. The result `[8, 2048, 128]`
  holds the forward direction's gated features in columns 0–63 and the backward direction's in columns 64–127.

  Everything is over the extended reals with the ideal instance's own exponential and quotient, so nothing here
  depends on the inputs being finite: the two programs are compared operation by operation, never by an algebraic law
  that could fail at an infinity.
-/
import Idealize.ShloMosaic.PureOps.Ideal
import Idealize.ShloMosaic.Lib.ValueIdx

noncomputable section

open scoped BigOperators

namespace Cert.NodeAttention

open Idealize.ShloMosaic Idealize.ShloMosaic.ValueIdx

/-- The word both programs start a row's maximum from: the f32 pattern of `−∞`. Its value is never needed. -/
abbrev negInf : EReal := Ideal.ofBits .f32 0xFF800000#32

/-- The maximum of a row of 64 scores, folded from `negInf`. -/
def rowMax (a : Fin 64 → EReal) : EReal := (Finset.univ : Finset (Fin 64)).fold max negInf a

/-- The softmax weight of entry `d` of a row of 64 scores. -/
def softRow (a : Fin 64 → EReal) (d : Fin 64) : EReal :=
  Ideal.div (Ideal.exp (a d - rowMax a)) (∑ k : Fin 64, Ideal.exp (a k - rowMax a))

/-- Folding `max` from `c` never ends below `c`, so one more `max` with `c` changes nothing: the reference takes the
    row maximum once more against `−∞`, the kernel does not. -/
theorem max_fold_self {ι : Type*} (s : Finset ι) (c : EReal) (f : ι → EReal) : max c (s.fold max c f) = s.fold max c f :=
  max_eq_right (Finset.le_fold_max (b := c) (f := f) (s := s) c |>.mpr (Or.inl le_rfl))

/-- The projected features `x · W + β` at batch `b`, node `m`, feature `d`. -/
def proj (x : (⟨3, ![8, 2048, 64]⟩ : Shape).Idx → EReal) (W : (⟨2, ![64, 64]⟩ : Shape).Idx → EReal)
    (β : (⟨1, ![64]⟩ : Shape).Idx → EReal) (b : Fin 8) (m : Fin 2048) (d : Fin 64) : EReal :=
  (∑ e : Fin 64, x (ix3 b m e) * W (ix2 e d)) + β (ix1 d)

/-- The adjacency's aggregation of the projected features: the score of node `n` at feature `d`. -/
def score (A : (⟨3, ![8, 2048, 2048]⟩ : Shape).Idx → EReal) (x : (⟨3, ![8, 2048, 64]⟩ : Shape).Idx → EReal)
    (W : (⟨2, ![64, 64]⟩ : Shape).Idx → EReal) (β : (⟨1, ![64]⟩ : Shape).Idx → EReal) (b : Fin 8) (n : Fin 2048)
    (d : Fin 64) : EReal :=
  ∑ m : Fin 2048, A (ix3 b n m) * proj x W β b m d

/-- One direction's result: the dynamic feature scaled by the softmax of the node's scores. -/
def gated (D : (⟨3, ![8, 2048, 64]⟩ : Shape).Idx → EReal) (A : (⟨3, ![8, 2048, 2048]⟩ : Shape).Idx → EReal)
    (x : (⟨3, ![8, 2048, 64]⟩ : Shape).Idx → EReal) (W : (⟨2, ![64, 64]⟩ : Shape).Idx → EReal)
    (β : (⟨1, ![64]⟩ : Shape).Idx → EReal) (b : Fin 8) (n : Fin 2048) (d : Fin 64) : EReal :=
  D (ix3 b n d) * softRow (score A x W β b n) d

/-- The whole result: columns 0–63 the forward direction, columns 64–127 the backward one. -/
def result (x D : (⟨3, ![8, 2048, 64]⟩ : Shape).Idx → EReal) (Af Ab : (⟨3, ![8, 2048, 2048]⟩ : Shape).Idx → EReal)
    (Wf : (⟨2, ![64, 64]⟩ : Shape).Idx → EReal) (βf : (⟨1, ![64]⟩ : Shape).Idx → EReal)
    (Wb : (⟨2, ![64, 64]⟩ : Shape).Idx → EReal) (βb : (⟨1, ![64]⟩ : Shape).Idx → EReal) :
    (⟨3, ![8, 2048, 128]⟩ : Shape).Idx → EReal := fun i =>
  if h : (i 2).val < 64 then gated D Af x Wf βf (i 0) (i 1) ⟨(i 2).val, h⟩
  else gated D Ab x Wb βb (i 0) (i 1) ⟨(i 2).val - 64, by have := (i 2).isLt; simp at this; omega⟩

/-- At a column of the first half the result is the forward direction's. -/
theorem result_left (x D : (⟨3, ![8, 2048, 64]⟩ : Shape).Idx → EReal) (Af Ab : (⟨3, ![8, 2048, 2048]⟩ : Shape).Idx → EReal)
    (Wf : (⟨2, ![64, 64]⟩ : Shape).Idx → EReal) (βf : (⟨1, ![64]⟩ : Shape).Idx → EReal)
    (Wb : (⟨2, ![64, 64]⟩ : Shape).Idx → EReal) (βb : (⟨1, ![64]⟩ : Shape).Idx → EReal)
    (b : Fin 8) (n : Fin 2048) (d : Fin 64) :
    result x D Af Ab Wf βf Wb βb (ix3 b n ⟨d.val, by omega⟩) = gated D Af x Wf βf b n d := by
  unfold result
  rw [dif_pos (show ((ix3 b n (⟨d.val, by omega⟩ : Fin 128)) 2).val < 64 from d.isLt)]

/-- At a column of the second half the result is the backward direction's. -/
theorem result_right (x D : (⟨3, ![8, 2048, 64]⟩ : Shape).Idx → EReal) (Af Ab : (⟨3, ![8, 2048, 2048]⟩ : Shape).Idx → EReal)
    (Wf : (⟨2, ![64, 64]⟩ : Shape).Idx → EReal) (βf : (⟨1, ![64]⟩ : Shape).Idx → EReal)
    (Wb : (⟨2, ![64, 64]⟩ : Shape).Idx → EReal) (βb : (⟨1, ![64]⟩ : Shape).Idx → EReal)
    (b : Fin 8) (n : Fin 2048) (d : Fin 64) :
    result x D Af Ab Wf βf Wb βb (ix3 b n ⟨64 + d.val, by omega⟩) = gated D Ab x Wb βb b n d := by
  unfold result
  rw [dif_neg (show ¬ ((ix3 b n (⟨64 + d.val, by omega⟩ : Fin 128)) 2).val < 64 from by
    show ¬ (64 + d.val < 64); omega)]
  congr 1
  exact Fin.ext (by show 64 + d.val - 64 = d.val; omega)

end Cert.NodeAttention

end
-- ==== Proof.RefValue.lean ====
/-
  The reference program computes the specification: its composed term, read entry by entry, is
  `NodeAttention.result` of the argument arrays.

  Operation by operation: the two products are sums over the contracted axis, the bias is broadcast along the node
  axes, the row maximum is a fold of `max` from `−∞` (and one more `max` with `−∞`, which changes nothing), the
  exponentials are summed from zero along the feature axis, the quotient scales the dynamic feature, and the two
  directions are joined along the last axis.
-/
import proofs.«129078_g44976897524696_cont_8to1c4_646_23_alg».proof.Proof.RefRead
import proofs.«129078_g44976897524696_cont_8to1c4_646_23_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.ReferenceIdeal.RefValue

open Cert.ReferenceIdeal Cert.ReferenceIdeal.Read Cert.NodeAttention Idealize.ShloMosaic Idealize.ShloMosaic.ValueIdx

/-! ## One direction, over any adjacency, weight and bias

The two directions are the same chain of operations on other arguments, so each stage is read once, over variables. -/

section Direction

variable (x D : (⟨S8x2048x64, .f32⟩ : BufTy).Contents (Elt Ideal))
  (A : (⟨S8x2048x2048, .f32⟩ : BufTy).Contents (Elt Ideal))
  (W : (⟨S64x64, .f32⟩ : BufTy).Contents (Elt Ideal))
  (β : (⟨S64, .f32⟩ : BufTy).Contents (Elt Ideal))

/-- The sum of the first product and the broadcast bias is the projected feature. -/
theorem proj_stage (b : Fin 8) (m : Fin 2048) (d : Fin 64) :
    val_main_v3 (F := Ideal) x W β (ix3 b m d) = proj x W β b m d := by
  have e0 : ∀ k : Fin 64, lidx_main_v0 (ix3 b m d) k = ix3 b m k := fun k => funext fun a => Fin.ext (by
    match a with | ⟨0, _⟩ => rfl | ⟨1, _⟩ => rfl | ⟨2, _⟩ => rfl)
  have e1 : ∀ k : Fin 64, ridx_main_v0 (ix3 b m d) k = ix2 k d := fun k => funext fun a => Fin.ext (by
    match a with | ⟨0, _⟩ => rfl | ⟨1, _⟩ => rfl)
  have e2 : idx_main_v1 (idx_main_v2 (ix3 b m d)) = ix1 d := funext fun a => Fin.ext (by
    match a with | ⟨0, _⟩ => rfl)
  rw [val_main_v3_apply, val_main_v0_apply, val_main_v2_apply, val_main_v1_apply, e2]
  simp only [e0, e1]
  rfl

/-- The second product, the adjacency against the projected features, is the score. -/
theorem score_stage (b : Fin 8) (n : Fin 2048) (d : Fin 64) :
    val_main_v4 (F := Ideal) x A W β (ix3 b n d) = score A x W β b n d := by
  have e0 : ∀ k : Fin 2048, lidx_main_v4 (ix3 b n d) k = ix3 b n k := fun k => funext fun a => Fin.ext (by
    match a with | ⟨0, _⟩ => rfl | ⟨1, _⟩ => rfl | ⟨2, _⟩ => rfl)
  have e1 : ∀ k : Fin 2048, ridx_main_v4 (ix3 b n d) k = ix3 b k d := fun k => funext fun a => Fin.ext (by
    match a with | ⟨0, _⟩ => rfl | ⟨1, _⟩ => rfl | ⟨2, _⟩ => rfl)
  rw [val_main_v4_apply]
  unfold score
  refine Finset.sum_congr rfl fun k _ => ?_
  rw [e0, e1, proj_stage]

/-- The maximum over the feature axis, taken once more against the starting word, is the row's maximum. -/
theorem rowMax_stage (b : Fin 8) (n : Fin 2048) :
    val_main_v12 (F := Ideal) x A W β (ix2 b n) = rowMax (score A x W β b n) := by
  have hred : S8x2048x64.Reduces [2] S8x2048 := by decide
  have el : ∀ k : Fin 64, hred.lift (ix2 b n) k = ix3 b n k := fun k => funext fun a => Fin.ext (by
    match a with | ⟨0, _⟩ => rfl | ⟨1, _⟩ => rfl | ⟨2, _⟩ => rfl)
  have ef : (val_main_v4 (F := Ideal) x A W β ∘ hred.lift (ix2 b n)) = score A x W β b n :=
    funext fun (k : Fin 64) =>
      show val_main_v4 (F := Ideal) x A W β (hred.lift (ix2 b n) k) = score A x W β b n k by
        rw [el, score_stage]
  rw [val_main_v12_apply, val_main_v11_apply, val_main_cst_0_apply]
  unfold val_main_v10
  rw [Host.reduce_eq_fold_single (FloatOps.maximumf (F := Ideal) (φ := .f32)) _ _ _ hred, ef]
  exact max_fold_self _ _ _

/-- The exponential of a score less its row's maximum. -/
theorem exp_stage (b : Fin 8) (n : Fin 2048) (k : Fin 64) :
    val_main_v16 (F := Ideal) x A W β (ix3 b n k)
      = Ideal.exp (score A x W β b n k - rowMax (score A x W β b n)) := by
  have e : idx_main_v13 (idx_main_v14 (ix3 b n k)) = ix2 b n := funext fun a => Fin.ext (by
    match a with | ⟨0, _⟩ => rfl | ⟨1, _⟩ => rfl)
  rw [val_main_v16_apply, val_main_v15_apply, val_main_v14_apply, val_main_v13_apply, e, score_stage, rowMax_stage]
  rfl

/-- The exponential over the row's sum of exponentials, the sum started from zero, is the softmax weight. -/
theorem softRow_stage (b : Fin 8) (n : Fin 2048) (d : Fin 64) :
    val_main_v20 (F := Ideal) x A W β (ix3 b n d) = softRow (score A x W β b n) d := by
  have e0 : idx_main_v18 (idx_main_v19 (ix3 b n d)) = ix2 b n := funext fun a => Fin.ext (by
    match a with | ⟨0, _⟩ => rfl | ⟨1, _⟩ => rfl)
  have e1 : ∀ k : Fin 64, idx_main_v17 (ix2 b n) k = ix3 b n k := fun k => funext fun a => Fin.ext (by
    match a with | ⟨0, _⟩ => rfl | ⟨1, _⟩ => rfl | ⟨2, _⟩ => rfl)
  rw [val_main_v20_apply, val_main_v19_apply, val_main_v18_apply, e0, val_main_v17_apply, val_main_cst_1_apply]
  simp only [e1, exp_stage, Ideal.ofBits_def, Ideal.ofBits_zero_f32, zero_add]
  rfl

/-- The dynamic feature times the softmax weight is the direction's gated feature. -/
theorem gated_stage (b : Fin 8) (n : Fin 2048) (d : Fin 64) :
    val_main_v32 (F := Ideal) x D A W β (ix3 b n d) = gated D A x W β b n d := by
  rw [val_main_v32_apply, softRow_stage]
  rfl

/-- The backward direction's chain is the forward direction's, operation for operation. -/
theorem backward_eq_forward :
    val_main_v33 (F := Ideal) x D A W β = val_main_v32 (F := Ideal) x D A W β := rfl

end Direction

/-- The reference's result, as a function of its eight arguments, is the specified function of them. -/
theorem reference_is_result (x0 x1 : (⟨S8x2048x64, .f32⟩ : BufTy).Contents (Elt Ideal))
    (x2 x3 : (⟨S8x2048x2048, .f32⟩ : BufTy).Contents (Elt Ideal)) (x4 : (⟨S64x64, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) :
    val_main_v34 (F := Ideal) x0 x1 x2 x3 x4 x5 x6 x7 = result x0 x1 x2 x3 x4 x5 x6 x7 := by
  funext i
  obtain ⟨b, n, c, rfl⟩ : ∃ (b : Fin 8) (n : Fin 2048) (c : Fin 128), i = ix3 b n c := ⟨i 0, i 1, i 2, eq_ix3 i⟩
  unfold val_main_v34
  by_cases h : c.val < 64
  · -- a column of the first half: the first piece, at the same coordinates
    refine (concatenate_pair_apply_left (s₁ := S8x2048x64) (s₂ := S8x2048x64) (2 : Fin S8x2048x128.rank) _ _ _ (ix3 b n c) rfl
      (ix3 b n (⟨c.val, h⟩ : Fin 64)) ?_).trans ?_
    · intro a
      match a with
      | ⟨0, _⟩ => rfl
      | ⟨1, _⟩ => rfl
      | ⟨2, _⟩ => rfl
    · exact (gated_stage x0 x1 x2 x4 x5 b n ⟨c.val, h⟩).trans
        (result_left x0 x1 x2 x3 x4 x5 x6 x7 b n ⟨c.val, h⟩).symm
  · -- a column of the second half: the second piece, 64 columns back
    have hc := c.isLt
    have hd : c.val - 64 < 64 := by omega
    have ec : (⟨64 + (c.val - 64), by omega⟩ : Fin 128) = c := Fin.ext (by show 64 + (c.val - 64) = c.val; omega)
    refine (concatenate_pair_apply_right (s₁ := S8x2048x64) (s₂ := S8x2048x64) (2 : Fin S8x2048x128.rank) _ _ _ (ix3 b n c) rfl rfl
      (ix3 b n (⟨c.val - 64, hd⟩ : Fin 64)) ?_ ?_).trans ?_
    · intro a ha
      match a, ha with
      | ⟨0, _⟩, _ => rfl
      | ⟨1, _⟩, _ => rfl
      | ⟨2, _⟩, ha => exact absurd rfl ha
    · show (c.val - 64) + 64 = c.val
      omega
    · rw [backward_eq_forward]
      exact (gated_stage x0 x1 x3 x6 x7 b n ⟨c.val - 64, hd⟩).trans
        (((congrArg (fun c' : Fin 128 => result x0 x1 x2 x3 x4 x5 x6 x7 (ix3 b n c')) ec).symm.trans
          (result_right x0 x1 x2 x3 x4 x5 x6 x7 b n ⟨c.val - 64, hd⟩)).symm)

end Cert.ReferenceIdeal.RefValue

end
-- ==== Proof.Halves.lean ====
/-
  A block of 1024 rows by 128 columns written as two halves of 64 columns.

  The kernel body stores the forward direction's half at column offset 0 and then the backward direction's half at
  column offset 64. Read back, a column below 64 lies outside the later store's rectangle and holds the earlier
  store's value; a column from 64 on holds the later store's value.
-/
import proofs.«129078_g44976897524696_cont_8to1c4_646_23_alg».proof.Proof.Gen.KernelIdeal
import Idealize.ShloMosaic.Lib.Pipeline.FrameBody
import Idealize.ShloMosaic.Lib.ValueIdx

noncomputable section

namespace Cert.KernelIdeal.BodyPieces

open Cert.KernelIdeal Cert.KernelIdeal.Gen Idealize.ShloMosaic Idealize.ShloMosaic.ValueIdx

variable {F : FTy → Type} [FloatOps F]

/-- The rectangle of columns 0–63 of the block. -/
abbrev rectLo : Rect S1x1024x128 := Rect.unit ![0, 0, 0] ![1, 1024, 64] inb_S1x1024x128_S1x1024x64_0_0_0
/-- The rectangle of columns 64–127 of the block. -/
abbrev rectHi : Rect S1x1024x128 := Rect.unit ![0, 0, 64] ![1, 1024, 64] inb_S1x1024x128_S1x1024x64_0_0_64

/-- The block after `p` is stored at columns 0–63 and then `q` at columns 64–127. -/
def joined (p q : FVec F S1x1024x64 .f32) : Vec F S1x1024x128 .f32 :=
  View.canon [⟨rectHi, q⟩, ⟨rectLo, p⟩]

/-- Entry `(0, r, d)` of the second half sits at `(0, r, 64 + d)` of the block. -/
theorem rectHi_emb (r : Fin 1024) (d : Fin 64) :
    rectHi.emb (ix3 (0 : Fin 1) r d) = (ix3 (0 : Fin 1) r (⟨64 + d.val, by omega⟩ : Fin 128) : S1x1024x128.Idx) := by
  funext a; apply Fin.ext
  match a with
  | ⟨0, _⟩ => rfl
  | ⟨1, _⟩ => show 0 + 1 * r.val = r.val; omega
  | ⟨2, _⟩ => show 64 + 1 * d.val = 64 + d.val; omega

/-- Entry `(0, r, d)` of the first half sits at `(0, r, d)` of the block. -/
theorem rectLo_emb (r : Fin 1024) (d : Fin 64) :
    rectLo.emb (ix3 (0 : Fin 1) r d) = (ix3 (0 : Fin 1) r (⟨d.val, by omega⟩ : Fin 128) : S1x1024x128.Idx) := by
  funext a; apply Fin.ext
  match a with
  | ⟨0, _⟩ => rfl
  | ⟨1, _⟩ => show 0 + 1 * r.val = r.val; omega
  | ⟨2, _⟩ => show 0 + 1 * d.val = d.val; omega

/-- A column below 64 is outside the second half's rectangle. -/
theorem not_mem_rectHi (r : Fin 1024) (d : Fin 64) :
    (ix3 (0 : Fin 1) r (⟨d.val, by omega⟩ : Fin 128) : S1x1024x128.Idx) ∉ rectHi.set := by
  intro h
  obtain ⟨j, _, hj⟩ := (LoadRect.mem_set (r := rectHi.toLoadRect)).mp h ⟨2, by decide⟩
  have h3 : d.val = 64 + 1 * j := hj
  omega

/-- A column of the second half reads the later store. -/
theorem joined_right (p q : FVec F S1x1024x64 .f32) (r : Fin 1024) (d : Fin 64) :
    joined p q (ix3 (0 : Fin 1) r (⟨64 + d.val, by omega⟩ : Fin 128)) = q (ix3 (0 : Fin 1) r d) := by
  unfold joined
  rw [← rectHi_emb r d]
  exact View.canon_cons_emb (Val := Elt F) (e := .f32) rectHi q [⟨rectLo, p⟩] (ix3 (0 : Fin 1) r d)

/-- A column of the first half reads the earlier store. -/
theorem joined_left (p q : FVec F S1x1024x64 .f32) (r : Fin 1024) (d : Fin 64) :
    joined p q (ix3 (0 : Fin 1) r (⟨d.val, by omega⟩ : Fin 128)) = p (ix3 (0 : Fin 1) r d) := by
  unfold joined
  refine (View.canon_cons_of_not_mem (Val := Elt F) (e := .f32) (⟨rectHi, q⟩ : View.Piece (Elt F) S1x1024x128 .f32) [⟨rectLo, p⟩]
    (not_mem_rectHi r d)).trans ?_
  rw [← rectLo_emb r d]
  exact View.canon_cons_emb (Val := Elt F) (e := .f32) rectLo p [] (ix3 (0 : Fin 1) r d)

end Cert.KernelIdeal.BodyPieces

end
-- ==== Proof.Pieces.lean ====
/-
  What the kernel body leaves at one grid point, in terms of its arithmetic.

  The body has two control cases. At the first row block of a batch it stores the two projections `xᵀ·W + β` whole
  into the two scratch arrays and then reads them back; at the second row block it only reads what the first left.
  In both cases the output block of 1024 rows by 128 columns is written as two halves of 64 columns: the forward
  direction's gated features at columns 0–63, the backward direction's at columns 64–127.
-/
import proofs.«129078_g44976897524696_cont_8to1c4_646_23_alg».proof.Proof.Gen.KernelIdeal.Frame
import proofs.«129078_g44976897524696_cont_8to1c4_646_23_alg».proof.Proof.Halves
import Idealize.ShloMosaic.Lib.Pipeline.Value
import Idealize.ShloMosaic.Lib.ValueIdx

set_option maxRecDepth 16384

noncomputable section

namespace Cert.KernelIdeal.BodyPieces

open Cert.KernelIdeal Cert.KernelIdeal.Gen Idealize.ShloMosaic Idealize.ShloMosaic.TcCoe Idealize.ShloMosaic.Tactic
open Idealize.SL.Sem Idealize.ShloMosaic.ValueIdx

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

section Cases

variable (c : Dev nD) (i : grid0.Coords) (arg2 : Memref sig .tc .vmem S1x64x2048 .f32) (harg2 : arg2.IsWhole) (arg3 : Memref sig .tc .vmem S1x64x1024 .f32) (harg3 : arg3.IsWhole) (arg4 : Memref sig .tc .vmem S1x1024x2048 .f32) (harg4 : arg4.IsWhole) (arg5 : Memref sig .tc .vmem S1x1024x2048 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S1x1024x128 .f32) (harg10 : arg10.IsWhole) (arg11 : Memref sig .tc .vmem S2048x64 .f32) (harg11 : arg11.IsWhole) (arg12 : Memref sig .tc .vmem S2048x64 .f32) (harg12 : arg12.IsWhole)
variable (x0 : Vec F S1x64x2048 .f32) (x1 : Vec F S1x64x1024 .f32) (x2 x3 : Vec F S1x1024x2048 .f32) (x4 : Vec F S64x64 .f32) (x5 : Vec F S1x64 .f32) (x6 : Vec F S64x64 .f32) (x7 : Vec F S1x64 .f32)

/-- First row block: the forward scratch is left at the forward projection of the node block. -/
theorem scratch_fwd_first (hc0 : cond0_0 i) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay3 x0 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero zeros2]
  simp only [View.readAt_eq_ld, harg2.read_unread, harg3.read_unread, harg4.read_unread, harg5.read_unread, harg6.read_unread,
    harg7.read_unread, harg8.read_unread, harg9.read_unread, harg11.read_unread, harg12.read_unread,
    View.ld_unit_zero (S := S1x64x2048) zeros3, View.ld_unit_zero (S := S1x64x1024) zeros3,
    View.ld_unit_zero (S := S1x1024x2048) zeros3, View.ld_unit_zero (S := S64x64) zeros2, View.ld_unit_zero (S := S1x64) zeros2,
    View.ld_unit_zero (S := S2048x64) zeros2, View.readCov_unit_zero (S := S2048x64) _ zeros2]

/-- First row block: the backward scratch is left at the backward projection of the node block. -/
theorem scratch_bwd_first (hc0 : cond0_0 i) :
    sout0_A_1 c i arg2 harg2 arg3 harg3 arg4 harg4 arg5 harg5 arg6 harg6 arg7 harg7 arg8 harg8 arg9 harg9 arg10 harg10 arg11 harg11 arg12 harg12 hc0 x0 x1 x2 x3 x4 x5 x6 x7 = k0_pay4 x0 x6 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  rw [View.canon_unit_zero zeros2]
  simp only [View.readAt_eq_ld, harg2.read_unread, harg3.read_unread, harg4.read_unread, harg5.read_unread, harg6.read_unread,
    harg7.read_unread, harg8.read_unread, harg9.read_unread, harg11.read_unread, harg12.read_unread,
    View.ld_unit_zero (S := S1x64x2048) zeros3, View.ld_unit_zero (S := S1x64x1024) zeros3,
    View.ld_unit_zero (S := S1x1024x2048) zeros3, View.ld_unit_zero (S := S64x64) zeros2, View.ld_unit_zero (S := S1x64) zeros2,
    View.ld_unit_zero (S := S2048x64) zeros2, View.readCov_unit_zero (S := S2048x64) _ zeros2]

/-- First row block: the output block is the two gated halves over the projections just stored. -/
theorem block_first (hc0 : cond0_0 i) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7
      = joined (k0_pay6 x1 x2 (k0_pay3 x0 x4 x5)) (k0_pay1 (k0_pay5 x1) (k0_pay7 x3 (k0_pay4 x0 x6 x7))) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)]
  unfold kernelRun0_A
  dsimp only
  sl_unfold_words
  simp only [View.readAt_eq_ld, harg2.read_unread, harg3.read_unread, harg4.read_unread, harg5.read_unread, harg6.read_unread,
    harg7.read_unread, harg8.read_unread, harg9.read_unread, harg11.read_unread, harg12.read_unread,
    View.ld_unit_zero (S := S1x64x2048) zeros3, View.ld_unit_zero (S := S1x64x1024) zeros3,
    View.ld_unit_zero (S := S1x1024x2048) zeros3, View.ld_unit_zero (S := S64x64) zeros2, View.ld_unit_zero (S := S1x64) zeros2,
    View.ld_unit_zero (S := S2048x64) zeros2, View.readCov_unit_zero (S := S2048x64) _ zeros2]
  rfl

/-- Second row block: the output block is the two gated halves over the projections the scratch arrays hold. -/
theorem block_second (hc0 : ¬cond0_0 i) (xs0 xs1 : Vec F S2048x64 .f32) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1
      = joined (k0_pay6 x1 x2 xs0) (k0_pay1 (k0_pay5 x1) (k0_pay7 x3 xs1)) := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 xs1)]
  unfold kernelRun0_B
  dsimp only
  sl_unfold_words
  simp only [View.readAt_eq_ld, harg2.read_unread, harg3.read_unread, harg4.read_unread, harg5.read_unread, harg6.read_unread,
    harg7.read_unread, harg8.read_unread, harg9.read_unread, harg11.read_unread, harg12.read_unread,
    View.ld_unit_zero (S := S1x64x2048) zeros3, View.ld_unit_zero (S := S1x64x1024) zeros3,
    View.ld_unit_zero (S := S1x1024x2048) zeros3, View.ld_unit_zero (S := S64x64) zeros2, View.ld_unit_zero (S := S1x64) zeros2,
    View.ld_unit_zero (S := S2048x64) zeros2, View.readCov_unit_zero (S := S2048x64) _ zeros2]
  rfl

end Cases

end Cert.KernelIdeal.BodyPieces

end
-- ==== Proof.Blocks.lean ====
/-
  Each input window's block at a grid point, read at one entry, as an entry of an argument array.

  The grid has 16 points: point `t` works on batch `t / 2` and on the row block `t % 2` of 1024 of its 2048 nodes.
  Before the region the program transposes the node features and the dynamic features of every batch to
  feature-major form `[8, 64, 2048]` and views each bias `[64]` as a row `[1, 64]`. The windows then hand the body:
  the whole feature-major node block of the batch; the dynamic features of the row block, feature-major; the row
  block of each adjacency; and the two weights and the two bias rows whole.
-/
import proofs.«129078_g44976897524696_cont_8to1c4_646_23_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.BlockReads

open Cert.KernelIdeal Cert.KernelIdeal.Gen Idealize.ShloMosaic Idealize.ShloMosaic.TcCoe Idealize.ShloMosaic.Tactic
open Idealize.SL.Sem Idealize.ShloMosaic.StableHlo Idealize.ShloMosaic.ValueIdx

variable {F : FTy → Type} [FloatOps F]
variable (m : (ℓ : Loc nD τ sig) → Buf (Elt F) ℓ)

/-! ## The arrays the region finds -/

/-- The feature-major node features: the transpose of the first argument's last two axes. -/
theorem nodesT_eq (c : Dev nD) : (V m c main_call0_v0 : S8x64x2048.Idx → Elt F .f32)
    = transpose S8x64x2048 [0, 2, 1] (m ((c : Thread nD τ).loc main_arg0)) transposes_S8x2048x64_S8x64x2048_0_2_1 := by
  dsimp only [Gen.V, Gen.hostOps0]
  after_results
  rfl

/-- The feature-major dynamic features: the transpose of the second argument's last two axes. -/
theorem dynT_eq (c : Dev nD) : (V m c main_call0_v1 : S8x64x2048.Idx → Elt F .f32)
    = transpose S8x64x2048 [0, 2, 1] (m ((c : Thread nD τ).loc main_arg1)) transposes_S8x2048x64_S8x64x2048_0_2_1 := by
  dsimp only [Gen.V, Gen.hostOps0]
  after_results
  rfl

/-- The forward bias as a row. -/
theorem biasRowF_eq (c : Dev nD) : (V m c main_call0_v2 : S1x64.Idx → Elt F .f32)
    = shapeCast S1x64 (m ((c : Thread nD τ).loc main_arg5)) shapeCasts_S64_S1x64 := by
  dsimp only [Gen.V, Gen.hostOps0]
  after_results
  rfl

/-- The backward bias as a row. -/
theorem biasRowB_eq (c : Dev nD) : (V m c main_call0_v3 : S1x64.Idx → Elt F .f32)
    = shapeCast S1x64 (m ((c : Thread nD τ).loc main_arg7)) shapeCasts_S64_S1x64 := by
  dsimp only [Gen.V, Gen.hostOps0]
  after_results
  rfl

/-! ## Where each window's block sits, decided over the 16 points -/

theorem index_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 0 ∧ win0_1.index t (2 : Fin 3) = t.val % 2
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = t.val % 2 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val / 2 ∧ win0_8.index t (1 : Fin 3) = t.val % 2 ∧ win0_8.index t (2 : Fin 3) = 0 :=
  (by decide +kernel : ∀ t : Fin grid0.N, _)

theorem point_lt (t : Fin cfg0.N) : t.val < 16 := lt_of_lt_of_eq t.isLt (show cfg0.N = 16 from N_0)

/-- The batch a point works on. -/
def batchOf (t : Fin cfg0.N) : Fin 8 := ⟨t.val / 2, by have := point_lt t; omega⟩
/-- The node that row `r` of a point's row block is. -/
def nodeOf (t : Fin cfg0.N) (r : Fin 1024) : Fin 2048 := ⟨t.val % 2 * 1024 + r.val, by have := r.isLt; omega⟩

/-! ## The blocks, named at their literal types, and read at an entry -/

abbrev nodesBlk (c : Dev nD) (t : Fin cfg0.N) : Vec F S1x64x2048 .f32 := iblk m c 0 t
abbrev dynBlk (c : Dev nD) (t : Fin cfg0.N) : Vec F S1x64x1024 .f32 := iblk m c 1 t
abbrev adjFBlk (c : Dev nD) (t : Fin cfg0.N) : Vec F S1x1024x2048 .f32 := iblk m c 2 t
abbrev adjBBlk (c : Dev nD) (t : Fin cfg0.N) : Vec F S1x1024x2048 .f32 := iblk m c 3 t
abbrev weightFBlk (c : Dev nD) (t : Fin cfg0.N) : Vec F S64x64 .f32 := iblk m c 4 t
abbrev biasFBlk (c : Dev nD) (t : Fin cfg0.N) : Vec F S1x64 .f32 := iblk m c 5 t
abbrev weightBBlk (c : Dev nD) (t : Fin cfg0.N) : Vec F S64x64 .f32 := iblk m c 6 t
abbrev biasBBlk (c : Dev nD) (t : Fin cfg0.N) : Vec F S1x64 .f32 := iblk m c 7 t

/-- The node block at `(0, e, n)` is feature `e` of node `n` of the point's batch. -/
theorem nodesBlk_apply (c : Dev nD) (t : Fin cfg0.N) (e : Fin 64) (n : Fin 2048) :
    nodesBlk m c t (ix3 (0 : Fin 1) e n) = m ((c : Thread nD τ).loc main_arg0) (ix3 (batchOf t) n e) := by
  show V m c main_call0_v0 (((cfg0.win 0).blk t).view.emb (ix3 (0 : Fin 1) e n)) = _
  obtain ⟨e0, e1, e2, -⟩ := index_facts t
  have hi : ((cfg0.win 0).blk t).view.emb (ix3 (0 : Fin 1) e n) = (ix3 (batchOf t) e n : S8x64x2048.Idx) := by
    funext a; apply Fin.ext
    match a with
    | ⟨0, _⟩ => show win0_0.index t (0 : Fin 3) * 1 + 1 * 0 = t.val / 2; omega
    | ⟨1, _⟩ => show win0_0.index t (1 : Fin 3) * 64 + 1 * e.val = e.val; omega
    | ⟨2, _⟩ => show win0_0.index t (2 : Fin 3) * 2048 + 1 * n.val = n.val; omega
  rw [hi, nodesT_eq]
  exact transpose_apply [0, 2, 1] _ transposes_S8x2048x64_S8x64x2048_0_2_1 (ix3 (batchOf t) e n) (ix3 (batchOf t) n e)
    (fun b => by match b with | ⟨0, _⟩ => rfl | ⟨1, _⟩ => rfl | ⟨2, _⟩ => rfl)

/-- The dynamic-feature block at `(0, d, r)` is feature `d` of the row's node. -/
theorem dynBlk_apply (c : Dev nD) (t : Fin cfg0.N) (d : Fin 64) (r : Fin 1024) :
    dynBlk m c t (ix3 (0 : Fin 1) d r) = m ((c : Thread nD τ).loc main_arg1) (ix3 (batchOf t) (nodeOf t r) d) := by
  show V m c main_call0_v1 (((cfg0.win 1).blk t).view.emb (ix3 (0 : Fin 1) d r)) = _
  obtain ⟨-, -, -, e0, e1, e2, -⟩ := index_facts t
  have hi : ((cfg0.win 1).blk t).view.emb (ix3 (0 : Fin 1) d r) = (ix3 (batchOf t) d (nodeOf t r) : S8x64x2048.Idx) := by
    funext a; apply Fin.ext
    match a with
    | ⟨0, _⟩ => show win0_1.index t (0 : Fin 3) * 1 + 1 * 0 = t.val / 2; omega
    | ⟨1, _⟩ => show win0_1.index t (1 : Fin 3) * 64 + 1 * d.val = d.val; omega
    | ⟨2, _⟩ => show win0_1.index t (2 : Fin 3) * 1024 + 1 * r.val = t.val % 2 * 1024 + r.val; omega
  rw [hi, dynT_eq]
  exact transpose_apply [0, 2, 1] _ transposes_S8x2048x64_S8x64x2048_0_2_1 (ix3 (batchOf t) d (nodeOf t r))
    (ix3 (batchOf t) (nodeOf t r) d) (fun b => by match b with | ⟨0, _⟩ => rfl | ⟨1, _⟩ => rfl | ⟨2, _⟩ => rfl)

/-- The forward adjacency block at `(0, r, n)` is the row's node against node `n`. -/
theorem adjFBlk_apply (c : Dev nD) (t : Fin cfg0.N) (r : Fin 1024) (n : Fin 2048) :
    adjFBlk m c t (ix3 (0 : Fin 1) r n) = m ((c : Thread nD τ).loc main_arg2) (ix3 (batchOf t) (nodeOf t r) n) := by
  show V m c main_arg2 (((cfg0.win 2).blk t).view.emb (ix3 (0 : Fin 1) r n)) = _
  obtain ⟨-, -, -, -, -, -, e0, e1, e2, -⟩ := index_facts t
  have hi : ((cfg0.win 2).blk t).view.emb (ix3 (0 : Fin 1) r n) = (ix3 (batchOf t) (nodeOf t r) n : S8x2048x2048.Idx) := by
    funext a; apply Fin.ext
    match a with
    | ⟨0, _⟩ => show win0_2.index t (0 : Fin 3) * 1 + 1 * 0 = t.val / 2; omega
    | ⟨1, _⟩ => show win0_2.index t (1 : Fin 3) * 1024 + 1 * r.val = t.val % 2 * 1024 + r.val; omega
    | ⟨2, _⟩ => show win0_2.index t (2 : Fin 3) * 2048 + 1 * n.val = n.val; omega
  rw [hi, V_main_arg2]

/-- The backward adjacency block at `(0, r, n)` likewise. -/
theorem adjBBlk_apply (c : Dev nD) (t : Fin cfg0.N) (r : Fin 1024) (n : Fin 2048) :
    adjBBlk m c t (ix3 (0 : Fin 1) r n) = m ((c : Thread nD τ).loc main_arg3) (ix3 (batchOf t) (nodeOf t r) n) := by
  show V m c main_arg3 (((cfg0.win 3).blk t).view.emb (ix3 (0 : Fin 1) r n)) = _
  obtain ⟨-, -, -, -, -, -, -, -, -, e0, e1, e2, -⟩ := index_facts t
  have hi : ((cfg0.win 3).blk t).view.emb (ix3 (0 : Fin 1) r n) = (ix3 (batchOf t) (nodeOf t r) n : S8x2048x2048.Idx) := by
    funext a; apply Fin.ext
    match a with
    | ⟨0, _⟩ => show win0_3.index t (0 : Fin 3) * 1 + 1 * 0 = t.val / 2; omega
    | ⟨1, _⟩ => show win0_3.index t (1 : Fin 3) * 1024 + 1 * r.val = t.val % 2 * 1024 + r.val; omega
    | ⟨2, _⟩ => show win0_3.index t (2 : Fin 3) * 2048 + 1 * n.val = n.val; omega
  rw [hi, V_main_arg3]

/-- The forward weight block is the weight. -/
theorem weightFBlk_apply (c : Dev nD) (t : Fin cfg0.N) (e d : Fin 64) :
    weightFBlk m c t (ix2 e d) = m ((c : Thread nD τ).loc main_arg4) (ix2 e d) := by
  show V m c main_arg4 (((cfg0.win 4).blk t).view.emb (ix2 e d)) = _
  obtain ⟨-, -, -, -, -, -, -, -, -, -, -, -, e0, e1, -⟩ := index_facts t
  have hi : ((cfg0.win 4).blk t).view.emb (ix2 e d) = (ix2 e d : S64x64.Idx) := by
    funext a; apply Fin.ext
    match a with
    | ⟨0, _⟩ => show win0_4.index t (0 : Fin 2) * 64 + 1 * e.val = e.val; omega
    | ⟨1, _⟩ => show win0_4.index t (1 : Fin 2) * 64 + 1 * d.val = d.val; omega
  rw [hi, V_main_arg4]

/-- The backward weight block is the weight. -/
theorem weightBBlk_apply (c : Dev nD) (t : Fin cfg0.N) (e d : Fin 64) :
    weightBBlk m c t (ix2 e d) = m ((c : Thread nD τ).loc main_arg6) (ix2 e d) := by
  show V m c main_arg6 (((cfg0.win 6).blk t).view.emb (ix2 e d)) = _
  obtain ⟨-, -, -, -, -, -, -, -, -, -, -, -, -, -, -, -, e0, e1, -⟩ := index_facts t
  have hi : ((cfg0.win 6).blk t).view.emb (ix2 e d) = (ix2 e d : S64x64.Idx) := by
    funext a; apply Fin.ext
    match a with
    | ⟨0, _⟩ => show win0_6.index t (0 : Fin 2) * 64 + 1 * e.val = e.val; omega
    | ⟨1, _⟩ => show win0_6.index t (1 : Fin 2) * 64 + 1 * d.val = d.val; omega
  rw [hi, V_main_arg6]

/-- A bias viewed as a row reads the bias at the column. -/
theorem row_of_bias_apply (β : S64.Idx → Elt F .f32) (d : Fin 64) :
    shapeCast S1x64 β shapeCasts_S64_S1x64 (ix2 (0 : Fin 1) d) = β (ix1 d) := by
  refine (shapeCast_addUnit_apply ![64] β shapeCasts_S64_S1x64 (ix2 (0 : Fin 1) d)).trans ?_
  exact congrArg β (funext fun a => by match a with | ⟨0, _⟩ => rfl)

/-- The forward bias row block at `(0, d)` is the forward bias at `d`. -/
theorem biasFBlk_apply (c : Dev nD) (t : Fin cfg0.N) (d : Fin 64) :
    biasFBlk m c t (ix2 (0 : Fin 1) d) = m ((c : Thread nD τ).loc main_arg5) (ix1 d) := by
  show V m c main_call0_v2 (((cfg0.win 5).blk t).view.emb (ix2 (0 : Fin 1) d)) = _
  obtain ⟨-, -, -, -, -, -, -, -, -, -, -, -, -, -, e0, e1, -⟩ := index_facts t
  have hi : ((cfg0.win 5).blk t).view.emb (ix2 (0 : Fin 1) d) = (ix2 (0 : Fin 1) d : S1x64.Idx) := by
    funext a; apply Fin.ext
    match a with
    | ⟨0, _⟩ => show win0_5.index t (0 : Fin 2) * 1 + 1 * 0 = 0; omega
    | ⟨1, _⟩ => show win0_5.index t (1 : Fin 2) * 64 + 1 * d.val = d.val; omega
  rw [hi, biasRowF_eq]
  exact row_of_bias_apply _ d

/-- The backward bias row block at `(0, d)` is the backward bias at `d`. -/
theorem biasBBlk_apply (c : Dev nD) (t : Fin cfg0.N) (d : Fin 64) :
    biasBBlk m c t (ix2 (0 : Fin 1) d) = m ((c : Thread nD τ).loc main_arg7) (ix1 d) := by
  show V m c main_call0_v3 (((cfg0.win 7).blk t).view.emb (ix2 (0 : Fin 1) d)) = _
  obtain ⟨-, -, -, -, -, -, -, -, -, -, -, -, -, -, -, -, -, -, e0, e1, -⟩ := index_facts t
  have hi : ((cfg0.win 7).blk t).view.emb (ix2 (0 : Fin 1) d) = (ix2 (0 : Fin 1) d : S1x64.Idx) := by
    funext a; apply Fin.ext
    match a with
    | ⟨0, _⟩ => show win0_7.index t (0 : Fin 2) * 1 + 1 * 0 = 0; omega
    | ⟨1, _⟩ => show win0_7.index t (1 : Fin 2) * 64 + 1 * d.val = d.val; omega
  rw [hi, biasRowB_eq]
  exact row_of_bias_apply _ d

end Cert.KernelIdeal.BlockReads

end
-- ==== Proof.BodyValue.lean ====
/-
  The kernel body's arithmetic, read one entry at a time on the extended reals.

  The body projects the whole feature-major node block once per batch, `h = xᵀ·W + β` (a product contracting the
  feature axis of `xᵀ : [64, 2048]` with the first axis of `W : [64, 64]`, plus the bias row broadcast down), and at
  every grid point aggregates a block of 1024 adjacency rows against the stored projection, turns each row of 64
  scores into softmax weights and scales the transposed dynamic-feature block by them.
-/
import proofs.«129078_g44976897524696_cont_8to1c4_646_23_alg».proof.Proof.Gen.KernelIdeal.Skeleton
import proofs.«129078_g44976897524696_cont_8to1c4_646_23_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Cert.NodeAttention Idealize.ShloMosaic Idealize.ShloMosaic.ValueIdx

/-! ## The keepdims column forms -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The projection's product: contracting the feature axis of both operands -/

theorem lhs_proj_0 (i : S2048x64.Idx) (q : dot_S64x2048_S64x64_S2048x64_0_0_1_1_n_n.contr.Idx) :
    (dot_S64x2048_S64x64_S2048x64_0_0_1_1_n_n.lhsIdx i q 0).val = (q ⟨0, by decide⟩).val :=
  dot_S64x2048_S64x64_S2048x64_0_0_1_1_n_n.lhsIdx_val_of_single rfl i q
theorem lhs_proj_1 (i : S2048x64.Idx) (q : dot_S64x2048_S64x64_S2048x64_0_0_1_1_n_n.contr.Idx) :
    (dot_S64x2048_S64x64_S2048x64_0_0_1_1_n_n.lhsIdx i q 1).val = (i 0).val := by
  unfold DotDims.lhsIdx
  rw [dif_neg (show ¬(1 : Fin S64x2048.rank) ∈ dot_S64x2048_S64x64_S2048x64_0_0_1_1_n_n.lhsBatch by decide), dif_pos (show (1 : Fin S64x2048.rank) ∈ dot_S64x2048_S64x64_S2048x64_0_0_1_1_n_n.lhsNonContracting by decide)]
  rfl
theorem rhs_proj_0 (i : S2048x64.Idx) (q : dot_S64x2048_S64x64_S2048x64_0_0_1_1_n_n.contr.Idx) :
    (dot_S64x2048_S64x64_S2048x64_0_0_1_1_n_n.rhsIdx i q 0).val = (q ⟨0, by decide⟩).val :=
  dot_S64x2048_S64x64_S2048x64_0_0_1_1_n_n.rhsIdx_val_of_single rfl i q
theorem rhs_proj_1 (i : S2048x64.Idx) (q : dot_S64x2048_S64x64_S2048x64_0_0_1_1_n_n.contr.Idx) :
    (dot_S64x2048_S64x64_S2048x64_0_0_1_1_n_n.rhsIdx i q 1).val = (i 1).val := by
  unfold DotDims.rhsIdx
  rw [dif_neg (show ¬(1 : Fin S64x64.rank) ∈ dot_S64x2048_S64x64_S2048x64_0_0_1_1_n_n.rhsBatch by decide), dif_pos (show (1 : Fin S64x64.rank) ∈ dot_S64x2048_S64x64_S2048x64_0_0_1_1_n_n.rhsNonContracting by decide)]
  rfl

/-- A product contracting the first axis of `[64, 2048]` with the first axis of `[64, 64]`, into zero: entry `(m, d)` is
    the sum over the contracted coordinate `e` of `x[e, m] · w[e, d]`. -/
theorem matmul_proj_apply (x : FVec Ideal S64x2048 .f32) (w : FVec Ideal S64x64 .f32) (mm : Fin 2048) (d : Fin 64) :
    matmul (F := Ideal) dot_S64x2048_S64x64_S2048x64_0_0_1_1_n_n none x w (constant (F := Ideal) S2048x64 .f32 0x00000000#32) (ix2 mm d)
      = ∑ e : Fin 64, x (ix2 e mm) * w (ix2 e d) := by
  simp only [matmul]
  rw [Ideal.matmul_constant_zero_apply, ← Equiv.sum_comp (contrEquiv1 dot_S64x2048_S64x64_S2048x64_0_0_1_1_n_n 64 rfl rfl).symm]
  refine Finset.sum_congr rfl fun k _ => ?_
  have hk := contrEquiv1_symm_val dot_S64x2048_S64x64_S2048x64_0_0_1_1_n_n 64 rfl rfl k
  have el : dot_S64x2048_S64x64_S2048x64_0_0_1_1_n_n.lhsIdx (ix2 mm d) ((contrEquiv1 dot_S64x2048_S64x64_S2048x64_0_0_1_1_n_n 64 rfl rfl).symm k) = ix2 k mm := funext fun a => Fin.ext (by
    match a with
    | ⟨0, _⟩ => exact (lhs_proj_0 _ _).trans hk
    | ⟨1, _⟩ => exact lhs_proj_1 _ _)
  have er : dot_S64x2048_S64x64_S2048x64_0_0_1_1_n_n.rhsIdx (ix2 mm d) ((contrEquiv1 dot_S64x2048_S64x64_S2048x64_0_0_1_1_n_n 64 rfl rfl).symm k) = ix2 k d := funext fun a => Fin.ext (by
    match a with
    | ⟨0, _⟩ => exact (rhs_proj_0 _ _).trans hk
    | ⟨1, _⟩ => exact rhs_proj_1 _ _)
  rw [el, er]

/-- The forward projection's entry `(m, d)`: the sum over the 64 features of `xᵀ[e, m] · W[e, d]`, plus the bias. -/
theorem proj_fwd_apply (v40 : Vec Ideal S1x64x2048 .f32) (W : Vec Ideal S64x64 .f32) (β : Vec Ideal S1x64 .f32)
    (mm : Fin 2048) (d : Fin 64) :
    k0_pay3 (F := Ideal) v40 W β (ix2 mm d)
      = (∑ e : Fin 64, v40 (ix3 (0 : Fin 1) e mm) * W (ix2 e d)) + β (ix2 (0 : Fin 1) d) := by
  unfold k0_pay3 k0_pay2
  rw [shapeCast_self, shapeCast_self, addf_apply, matmul_proj_apply, broadcastTo_1b_ab_apply]
  refine congrArg (· + _) (Finset.sum_congr rfl fun e _ => ?_)
  rw [shapeCast_1ab_ab_apply]

/-- The backward projection's entry `(m, d)`: the same sum with the backward weight and bias. -/
theorem proj_bwd_apply (v40 : Vec Ideal S1x64x2048 .f32) (W : Vec Ideal S64x64 .f32) (β : Vec Ideal S1x64 .f32)
    (mm : Fin 2048) (d : Fin 64) :
    k0_pay4 (F := Ideal) v40 W β (ix2 mm d)
      = (∑ e : Fin 64, v40 (ix3 (0 : Fin 1) e mm) * W (ix2 e d)) + β (ix2 (0 : Fin 1) d) := by
  unfold k0_pay4 k0_pay2
  rw [shapeCast_self, shapeCast_self, addf_apply, matmul_proj_apply, broadcastTo_1b_ab_apply]
  refine congrArg (· + _) (Finset.sum_congr rfl fun e _ => ?_)
  rw [shapeCast_1ab_ab_apply]

/-! ## The aggregation's product: adjacency rows by projection columns -/

theorem lhs_agg_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_agg_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_agg_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_agg_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- A rows-by-columns product `[1024, 2048] · [2048, 64]` into zero: entry `(r, d)` is `∑ m, A[r, m] · h[m, d]`. -/
theorem matmul_agg_apply (A : FVec Ideal S1024x2048 .f32) (h : FVec Ideal S2048x64 .f32) (r : Fin 1024) (d : Fin 64) :
    matmul (F := Ideal) dot_S1024x2048_S2048x64_S1024x64_1_0_0_1_n_n none A h (constant (F := Ideal) S1024x64 .f32 0x00000000#32) (ix2 r d)
      = ∑ mm : Fin 2048, A (ix2 r mm) * h (ix2 mm d) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 r d) ((contrEquiv1 dot_S1024x2048_S2048x64_S1024x64_1_0_0_1_n_n 2048 rfl rfl).symm k) = ix2 r k := funext fun a => Fin.ext (by
    match a with
    | ⟨0, _⟩ => exact lhs_agg_0 _ _
    | ⟨1, _⟩ => exact (lhs_agg_1 _ _).trans hk)
  have er : dot_S1024x2048_S2048x64_S1024x64_1_0_0_1_n_n.rhsIdx (ix2 r d) ((contrEquiv1 dot_S1024x2048_S2048x64_S1024x64_1_0_0_1_n_n 2048 rfl rfl).symm k) = ix2 k d := funext fun a => Fin.ext (by
    match a with
    | ⟨0, _⟩ => exact (rhs_agg_0 _ _).trans hk
    | ⟨1, _⟩ => exact rhs_agg_1 _ _)
  rw [el, er]

/-- The score matrix of a block of 1024 adjacency rows against the stored projection. -/
def scores (A : FVec Ideal S1x1024x2048 .f32) (h : FVec Ideal S2048x64 .f32) : FVec Ideal S1024x64 .f32 :=
  matmul (F := Ideal) dot_S1024x2048_S2048x64_S1024x64_1_0_0_1_n_n none (shapeCast S1024x2048 A shapeCasts_S1x1024x2048_S1024x2048) h
    (constant (F := Ideal) S1024x64 .f32 0x00000000#32)

/-- Entry `(r, d)` of the scores: `∑ m, A[0, r, m] · h[m, d]`. -/
theorem scores_apply (A : FVec Ideal S1x1024x2048 .f32) (h : FVec Ideal S2048x64 .f32) (r : Fin 1024) (d : Fin 64) :
    scores A h (ix2 r d) = ∑ mm : Fin 2048, A (ix3 (0 : Fin 1) r mm) * h (ix2 mm d) := by
  unfold scores
  rw [matmul_agg_apply]
  refine Finset.sum_congr rfl fun mm _ => ?_
  rw [shapeCast_1ab_ab_apply]

/-! ## Scaling by the softmax of the rows of a score matrix -/

/-- An exponential at an index is the exponential of the element. -/
theorem exp_apply {s : Shape} {φ : FTy} (v : FVec Ideal s φ) (i : s.Idx) : exp v i = Ideal.exp (v i) := rfl

/-- The maximum of row `r` of a `[1024, 64]` matrix, taken from `−∞`, is the specification's `rowMax` of that row. -/
theorem rowMax_apply (α : FVec Ideal S1024x64 .f32) (r : Fin 1024) :
    multiReduction (F := Ideal) .maximumf [1] S1024 α 0xFF800000#32 reduces_S1024x64_S1024 (.inl rfl) rfl (ix1 r)
      = rowMax (fun d' => α (ix2 r d')) := by
  refine (Ideal.multiReduction_maximumf_single α 0xFF800000#32 reduces_S1024x64_S1024 (.inl rfl) rfl (ix1 r)).trans ?_
  show (Finset.univ : Finset (Fin 64)).fold max negInf (fun k => α (reduces_S1024x64_S1024.lift (ix1 r) k))
    = (Finset.univ : Finset (Fin 64)).fold max negInf (fun d' => α (ix2 r d'))
  refine congrArg (fun f => (Finset.univ : Finset (Fin 64)).fold max negInf f)
    (funext fun k => congrArg α (funext fun a => Fin.ext ?_))
  match a with
  | ⟨0, _⟩ => rfl
  | ⟨1, _⟩ => rfl

/-- The sum of row `r` of a `[1024, 64]` matrix. -/
theorem rowSum_apply (E : FVec Ideal S1024x64 .f32) (r : Fin 1024) :
    multiReduction (F := Ideal) .add [1] S1024 E 0x00000000#32 reduces_S1024x64_S1024 (.inl rfl) rfl (ix1 r)
      = ∑ k : Fin 64, E (ix2 r k) := by
  refine (Ideal.multiReduction_add_single E 0x00000000#32 reduces_S1024x64_S1024 (.inl rfl) rfl (ix1 r)).trans ?_
  refine Finset.sum_congr rfl fun k _ => congrArg E (funext fun a => Fin.ext ?_)
  match a with
  | ⟨0, _⟩ => rfl
  | ⟨1, _⟩ => rfl

/-- The exponentials of a score matrix's entries, each row shifted by its maximum. -/
def expShift (α : FVec Ideal S1024x64 .f32) : FVec Ideal S1024x64 .f32 :=
  exp (subf α (broadcastTo S1024x64 (shapeCast S1024x1 (multiReduction (F := Ideal) .maximumf [1] S1024 α 0xFF800000#32 reduces_S1024x64_S1024 (.inl rfl) rfl) shapeCasts_S1024_S1024x1) broadcasts_S1024x1_S1024x64))

/-- Entry `(r, d)` of the shifted exponentials: `exp (α[r, d] − max of row r)`. -/
theorem expShift_apply (α : FVec Ideal S1024x64 .f32) (r : Fin 1024) (d : Fin 64) :
    expShift α (ix2 r d) = Ideal.exp (α (ix2 r d) - rowMax (fun d' => α (ix2 r d'))) := by
  unfold expShift
  rw [exp_apply, subf_apply, broadcastTo_a1_ab_apply, shapeCast_a_a1_apply, rowMax_apply]

/-- A matrix `D` scaled entrywise by a matrix `E` with each row divided by its sum, stored as a `[1, 1024, 64]` block. -/
def normScale (D E : FVec Ideal S1024x64 .f32) : FVec Ideal S1x1024x64 .f32 :=
  shapeCast S1x1024x64 (mulf D (divf E (broadcastTo S1024x64 (shapeCast S1024x1 (multiReduction (F := Ideal) .add [1] S1024 E 0x00000000#32 reduces_S1024x64_S1024 (.inl rfl) rfl) shapeCasts_S1024_S1024x1) broadcasts_S1024x1_S1024x64))) shapeCasts_S1024x64_S1x1024x64

/-- Entry `(0, r, d)` of the normalised scaling: `D[r, d] · (E[r, d] / ∑ k, E[r, k])`. -/
theorem normScale_apply (D E : FVec Ideal S1024x64 .f32) (r : Fin 1024) (d : Fin 64) :
    normScale D E (ix3 (0 : Fin 1) r d) = D (ix2 r d) * Ideal.div (E (ix2 r d)) (∑ k : Fin 64, E (ix2 r k)) := by
  unfold normScale
  rw [shapeCast_ab_1ab_apply, mulf_apply, divf_apply, broadcastTo_a1_ab_apply, shapeCast_a_a1_apply, rowSum_apply]

/-- Scaling by the softmax of the rows of a score matrix `α`: entry `(r, d)` is `D[r, d]` times the softmax weight of
    entry `d` of row `r` of `α`. -/
theorem softScale_apply (D α : FVec Ideal S1024x64 .f32) (r : Fin 1024) (d : Fin 64) :
    normScale D (expShift α) (ix3 (0 : Fin 1) r d) = D (ix2 r d) * softRow (fun d' => α (ix2 r d')) d := by
  rw [normScale_apply]
  simp only [expShift_apply]
  rfl

/-- The dynamic-feature block, stored feature-major, transposed: entry `(r, d)` reads the block at `(0, d, r)`. -/
theorem dyn_apply (v3 : Vec Ideal S1x64x1024 .f32) (r : Fin 1024) (d : Fin 64) :
    k0_pay5 (F := Ideal) v3 (ix2 r d) = v3 (ix3 (0 : Fin 1) d r) := by
  unfold k0_pay5
  rw [transpose_ix2_apply, shapeCast_1ab_ab_apply]

/-- The forward half's term is the dynamic features scaled by the softmax of the forward scores' rows. -/
theorem k0_pay6_eq (v3 : Vec Ideal S1x64x1024 .f32) (v6 : Vec Ideal S1x1024x2048 .f32) (v8 : Vec Ideal S2048x64 .f32) :
    k0_pay6 (F := Ideal) v3 v6 v8 = normScale (k0_pay5 v3) (expShift (scores v6 v8)) := rfl

/-- The carried term of the backward half is the shifted exponentials of the backward scores. -/
theorem k0_pay7_eq (v23 : Vec Ideal S1x1024x2048 .f32) (v25 : Vec Ideal S2048x64 .f32) :
    k0_pay7 (F := Ideal) v23 v25 = expShift (scores v23 v25) := rfl

/-- The backward half's last stretch normalises a carried matrix along its rows and scales by it. -/
theorem k0_pay1_eq (D E : FVec Ideal S1024x64 .f32) : k0_pay1 (F := Ideal) D E = normScale D E := rfl

/-- The forward half of the output block at row `r`, column `d`: the dynamic feature (stored feature-major, so read at
    `(d, r)`) times the softmax weight of the row's scores `∑ m, A[r, m] · h[m, ·]`. -/
theorem gate_fwd_apply (v3 : Vec Ideal S1x64x1024 .f32) (v6 : Vec Ideal S1x1024x2048 .f32) (v8 : Vec Ideal S2048x64 .f32)
    (r : Fin 1024) (d : Fin 64) :
    k0_pay6 (F := Ideal) v3 v6 v8 (ix3 (0 : Fin 1) r d)
      = v3 (ix3 (0 : Fin 1) d r)
        * softRow (fun d' => ∑ mm : Fin 2048, v6 (ix3 (0 : Fin 1) r mm) * v8 (ix2 mm d')) d := by
  rw [k0_pay6_eq, softScale_apply, dyn_apply]
  simp only [scores_apply]

/-- The backward half of the output block at row `r`, column `d`: the same with the backward adjacency block and the
    backward projection. -/
theorem gate_bwd_apply (v3 : Vec Ideal S1x64x1024 .f32) (v23 : Vec Ideal S1x1024x2048 .f32) (v25 : Vec Ideal S2048x64 .f32)
    (r : Fin 1024) (d : Fin 64) :
    k0_pay1 (F := Ideal) (k0_pay5 v3) (k0_pay7 v23 v25) (ix3 (0 : Fin 1) r d)
      = v3 (ix3 (0 : Fin 1) d r)
        * softRow (fun d' => ∑ mm : Fin 2048, v23 (ix3 (0 : Fin 1) r mm) * v25 (ix2 mm d')) d := by
  rw [k0_pay1_eq, k0_pay7_eq, softScale_apply, dyn_apply]
  simp only [scores_apply]

end Cert.KernelIdeal.BodyValue

end
-- ==== Proof.PointValue.lean ====
/-
  What one grid point computes, as entries of the specified result.

  Point `t` works on batch `t / 2`. Whatever the control case, after the point each scratch array holds the
  projection `x·W + β` of that batch: the first row block of a batch computes it from the batch's node block, the
  second finds what the first left, and the two points share their batch. So at every point the block written back
  is the two gated halves over the batch's projections, which entry by entry is the specified result at the block's
  place in the output array.
-/
import proofs.«129078_g44976897524696_cont_8to1c4_646_23_alg».proof.Proof.Gen.KernelIdeal.Value
import proofs.«129078_g44976897524696_cont_8to1c4_646_23_alg».proof.Proof.Pieces
import proofs.«129078_g44976897524696_cont_8to1c4_646_23_alg».proof.Proof.Blocks
import proofs.«129078_g44976897524696_cont_8to1c4_646_23_alg».proof.Proof.BodyValue
import proofs.«129078_g44976897524696_cont_8to1c4_646_23_alg».proof.Proof.Spec

set_option maxRecDepth 16384

noncomputable section

open scoped BigOperators

namespace Cert.KernelIdeal.PointValue

open Cert.KernelIdeal Cert.KernelIdeal.Gen Cert.KernelIdeal.BodyPieces Cert.KernelIdeal.BlockReads Cert.KernelIdeal.BodyValue
open Cert.NodeAttention Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The argument arrays, and the result specified of them -/

abbrev nodes (c : Dev nD) : S8x2048x64.Idx → EReal := m ((c : Thread nD τ).loc main_arg0)
abbrev dyn (c : Dev nD) : S8x2048x64.Idx → EReal := m ((c : Thread nD τ).loc main_arg1)
abbrev adjF (c : Dev nD) : S8x2048x2048.Idx → EReal := m ((c : Thread nD τ).loc main_arg2)
abbrev adjB (c : Dev nD) : S8x2048x2048.Idx → EReal := m ((c : Thread nD τ).loc main_arg3)
abbrev weightF (c : Dev nD) : S64x64.Idx → EReal := m ((c : Thread nD τ).loc main_arg4)
abbrev biasF (c : Dev nD) : S64.Idx → EReal := m ((c : Thread nD τ).loc main_arg5)
abbrev weightB (c : Dev nD) : S64x64.Idx → EReal := m ((c : Thread nD τ).loc main_arg6)
abbrev biasB (c : Dev nD) : S64.Idx → EReal := m ((c : Thread nD τ).loc main_arg7)

/-- The specified result of the argument arrays. -/
def resultArr (c : Dev nD) : S8x2048x128.Idx → EReal :=
  result (nodes m c) (dyn m c) (adjF m c) (adjB m c) (weightF m c) (biasF m c) (weightB m c) (biasB m c)

/-- The forward projection of batch `b`, as the `[2048, 64]` array a scratch holds. -/
def projF (c : Dev nD) (b : Fin 8) : Vec Ideal S2048x64 .f32 := fun j =>
  proj (nodes m c) (weightF m c) (biasF m c) b ⟨(j 0).val, idx2_lt0 j⟩ ⟨(j 1).val, idx2_lt1 j⟩
/-- The backward projection of batch `b`. -/
def projB (c : Dev nD) (b : Fin 8) : Vec Ideal S2048x64 .f32 := fun j =>
  proj (nodes m c) (weightB m c) (biasB m c) b ⟨(j 0).val, idx2_lt0 j⟩ ⟨(j 1).val, idx2_lt1 j⟩

theorem projF_apply (c : Dev nD) (b : Fin 8) (n : Fin 2048) (d : Fin 64) :
    projF m c b (ix2 n d) = proj (nodes m c) (weightF m c) (biasF m c) b n d := rfl
theorem projB_apply (c : Dev nD) (b : Fin 8) (n : Fin 2048) (d : Fin 64) :
    projB m c b (ix2 n d) = proj (nodes m c) (weightB m c) (biasB m c) b n d := rfl

/-! ## The projections the body computes are the batch's -/

/-- The body's forward projection of a point's blocks is the forward projection of the point's batch. -/
theorem proj_fwd_block (c : Dev nD) (t : Fin cfg0.N) :
    k0_pay3 (F := Ideal) (nodesBlk m c t) (weightFBlk m c t) (biasFBlk m c t) = projF m c (batchOf t) := by
  funext j
  obtain ⟨n, d, rfl⟩ : ∃ (n : Fin 2048) (d : Fin 64), j = ix2 n d := ⟨j 0, j 1, eq_ix2 j⟩
  refine (proj_fwd_apply (nodesBlk m c t) (weightFBlk m c t) (biasFBlk m c t) n d).trans ?_
  rw [projF_apply, biasFBlk_apply]
  unfold proj
  refine congrArg (· + _) (Finset.sum_congr rfl fun e _ => ?_)
  rw [nodesBlk_apply, weightFBlk_apply]

/-- The body's backward projection of a point's blocks is the backward projection of the point's batch. -/
theorem proj_bwd_block (c : Dev nD) (t : Fin cfg0.N) :
    k0_pay4 (F := Ideal) (nodesBlk m c t) (weightBBlk m c t) (biasBBlk m c t) = projB m c (batchOf t) := by
  funext j
  obtain ⟨n, d, rfl⟩ : ∃ (n : Fin 2048) (d : Fin 64), j = ix2 n d := ⟨j 0, j 1, eq_ix2 j⟩
  refine (proj_bwd_apply (nodesBlk m c t) (weightBBlk m c t) (biasBBlk m c t) n d).trans ?_
  rw [projB_apply, biasBBlk_apply]
  unfold proj
  refine congrArg (· + _) (Finset.sum_congr rfl fun e _ => ?_)
  rw [nodesBlk_apply, weightBBlk_apply]

/-! ## What the scratch arrays hold after a point -/

/-- After the first row block of a batch the forward scratch holds the batch's forward projection. -/
theorem scratchF_first (c : Dev nD) (t : Fin cfg0.N) (h0 : t.val % 2 = 0) :
    (outsAt0 m c t.val t.isLt).2.1 = projF m c (batchOf t) := by
  rw [outsAt0_A m c t h0]
  dsimp only
  exact (scratch_fwd_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (nodesBlk m c t) (dynBlk m c t) (adjFBlk m c t) (adjBBlk m c t) (weightFBlk m c t) (biasFBlk m c t) (weightBBlk m c t) (biasBBlk m c t) ((hcond0_0 t).mpr h0)).trans (proj_fwd_block m c t)

/-- After the first row block of a batch the backward scratch holds the batch's backward projection. -/
theorem scratchB_first (c : Dev nD) (t : Fin cfg0.N) (h0 : t.val % 2 = 0) :
    (outsAt0 m c t.val t.isLt).2.2 = projB m c (batchOf t) := by
  rw [outsAt0_A m c t h0]
  dsimp only
  exact (scratch_bwd_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (nodesBlk m c t) (dynBlk m c t) (adjFBlk m c t) (adjBBlk m c t) (weightFBlk m c t) (biasFBlk m c t) (weightBBlk m c t) (biasBBlk m c t) ((hcond0_0 t).mpr h0)).trans (proj_bwd_block m c t)

/-- The point before a second row block is the first row block of the same batch. -/
theorem batchOf_pred (t : Fin cfg0.N) (h0 : ¬t.val % 2 = 0) (h : t.val - 1 < cfg0.N) :
    batchOf (⟨t.val - 1, h⟩ : Fin cfg0.N) = batchOf t :=
  Fin.ext (by show (t.val - 1) / 2 = t.val / 2; omega)

/-- Before a second row block the forward scratch holds the batch's forward projection. -/
theorem scratchF_prev (c : Dev nD) (t : Fin cfg0.N) (h0 : ¬t.val % 2 = 0) (h : t.val - 1 < cfg0.N) :
    (outsAt0 m c (t.val - 1) h).2.1 = projF m c (batchOf t) :=
  (scratchF_first m c ⟨t.val - 1, h⟩ (by show (t.val - 1) % 2 = 0; omega)).trans
    (congrArg (projF m c) (batchOf_pred t h0 h))

/-- Before a second row block the backward scratch holds the batch's backward projection. -/
theorem scratchB_prev (c : Dev nD) (t : Fin cfg0.N) (h0 : ¬t.val % 2 = 0) (h : t.val - 1 < cfg0.N) :
    (outsAt0 m c (t.val - 1) h).2.2 = projB m c (batchOf t) :=
  (scratchB_first m c ⟨t.val - 1, h⟩ (by show (t.val - 1) % 2 = 0; omega)).trans
    (congrArg (projB m c) (batchOf_pred t h0 h))

/-! ## The block a point leaves -/

/-- At every point the output block is the two gated halves over the projections of the point's batch. -/
theorem block_eq (c : Dev nD) (t : Fin cfg0.N) :
    (outsAt0 m c t.val t.isLt).1
      = joined (k0_pay6 (F := Ideal) (dynBlk m c t) (adjFBlk m c t) (projF m c (batchOf t)))
          (k0_pay1 (F := Ideal) (k0_pay5 (dynBlk m c t)) (k0_pay7 (adjBBlk m c t) (projB m c (batchOf t)))) := by
  by_cases h0 : t.val % 2 = 0
  · rw [outsAt0_A m c t h0]
    dsimp only
    refine (block_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (nodesBlk m c t) (dynBlk m c t) (adjFBlk m c t) (adjBBlk m c t) (weightFBlk m c t) (biasFBlk m c t) (weightBBlk m c t) (biasBBlk m c t) ((hcond0_0 t).mpr h0)).trans ?_
    rw [proj_fwd_block, proj_bwd_block]
  · rw [outsAt0_B m c t h0]
    dsimp only
    refine (block_second (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (nodesBlk m c t) (dynBlk m c t) (adjFBlk m c t) (adjBBlk m c t) (weightFBlk m c t) (biasFBlk m c t) (weightBBlk m c t) (biasBBlk m c t) (fun h => h0 ((hcond0_0 t).mp h))
      ((outsAt0 m c (t.val - 1) (Nat.lt_of_le_of_lt (Nat.sub_le _ _) t.isLt)).2.1)
      ((outsAt0 m c (t.val - 1) (Nat.lt_of_le_of_lt (Nat.sub_le _ _) t.isLt)).2.2)).trans ?_
    rw [scratchF_prev m c t h0, scratchB_prev m c t h0]

/-! ## What a point writes back -/

/-- Row `r`, column `col` of a point's block sits at the batch, the row's node and the column of the array. -/
theorem out_emb (t : Fin cfg0.N) (r : Fin 1024) (col : Fin 128) :
    ((cfg0.win 8).blk t).view.emb (ix3 (0 : Fin 1) r col) = (ix3 (batchOf t) (nodeOf t r) col : S8x2048x128.Idx) := by
  have hf := index_facts t
  obtain ⟨-, -, -, -, -, -, -, -, -, -, -, -, -, -, -, -, -, -, -, -, e0, e1, e2⟩ := hf
  funext a; apply Fin.ext
  match a with
  | ⟨0, _⟩ => show win0_8.index t (0 : Fin 3) * 1 + 1 * 0 = t.val / 2; omega
  | ⟨1, _⟩ => show win0_8.index t (1 : Fin 3) * 1024 + 1 * r.val = t.val % 2 * 1024 + r.val; omega
  | ⟨2, _⟩ => show win0_8.index t (2 : Fin 3) * 128 + 1 * col.val = col.val; omega

/-- The forward half of a point's block, entry by entry, is the forward direction of the specification. -/
theorem fwd_half_apply (c : Dev nD) (t : Fin cfg0.N) (r : Fin 1024) (d : Fin 64) :
    k0_pay6 (F := Ideal) (dynBlk m c t) (adjFBlk m c t) (projF m c (batchOf t)) (ix3 (0 : Fin 1) r d)
      = gated (dyn m c) (adjF m c) (nodes m c) (weightF m c) (biasF m c) (batchOf t) (nodeOf t r) d := by
  refine (gate_fwd_apply (dynBlk m c t) (adjFBlk m c t) (projF m c (batchOf t)) r d).trans ?_
  have hs : (fun d' : Fin 64 => ∑ n : Fin 2048, adjFBlk m c t (ix3 (0 : Fin 1) r n) * projF m c (batchOf t) (ix2 n d'))
      = score (adjF m c) (nodes m c) (weightF m c) (biasF m c) (batchOf t) (nodeOf t r) := by
    funext d'
    unfold score
    exact Finset.sum_congr rfl fun n _ => by rw [adjFBlk_apply, projF_apply]
  rw [hs, dynBlk_apply]
  rfl

/-- The backward half of a point's block, entry by entry, is the backward direction of the specification. -/
theorem bwd_half_apply (c : Dev nD) (t : Fin cfg0.N) (r : Fin 1024) (d : Fin 64) :
    k0_pay1 (F := Ideal) (k0_pay5 (dynBlk m c t)) (k0_pay7 (adjBBlk m c t) (projB m c (batchOf t))) (ix3 (0 : Fin 1) r d)
      = gated (dyn m c) (adjB m c) (nodes m c) (weightB m c) (biasB m c) (batchOf t) (nodeOf t r) d := by
  refine (gate_bwd_apply (dynBlk m c t) (adjBBlk m c t) (projB m c (batchOf t)) r d).trans ?_
  have hs : (fun d' : Fin 64 => ∑ n : Fin 2048, adjBBlk m c t (ix3 (0 : Fin 1) r n) * projB m c (batchOf t) (ix2 n d'))
      = score (adjB m c) (nodes m c) (weightB m c) (biasB m c) (batchOf t) (nodeOf t r) := by
    funext d'
    unfold score
    exact Finset.sum_congr rfl fun n _ => by rw [adjBBlk_apply, projB_apply]
  rw [hs, dynBlk_apply]
  rfl

/-- A column of the block is in its first half or 64 past one of the second. -/
theorem col_cases (col : Fin 128) :
    (∃ d : Fin 64, col = (⟨d.val, Nat.lt_trans d.isLt (by decide)⟩ : Fin 128))
      ∨ (∃ d : Fin 64, col = (⟨64 + d.val, Nat.add_lt_add_left d.isLt 64⟩ : Fin 128)) := by
  by_cases hc : col.val < 64
  · exact Or.inl ⟨⟨col.val, hc⟩, rfl⟩
  · exact Or.inr ⟨⟨col.val - 64, by have := col.isLt; omega⟩, Fin.ext (by show col.val = 64 + (col.val - 64); omega)⟩

/-- WHAT POINT `t` WRITES BACK is its block of the specified result. -/
theorem flushed_eq (c : Dev nD) (t : Fin cfg0.N) :
    (dats m 0 c).flushed 8 t = ((cfg0.win 8).blk t).view.read (Elt Ideal) (resultArr m c) := by
  show (cfg0.win 8).cut (grid0.coords t) ((dats m 0 c).after 8 t) = _
  rw [after0_8, block_eq]
  funext y
  obtain ⟨z, r, col, rfl⟩ : ∃ (z : Fin 1) (r : Fin 1024) (col : Fin 128), y = ix3 z r col := ⟨y 0, y 1, y 2, eq_ix3 y⟩
  obtain rfl : z = 0 := Subsingleton.elim _ _
  show joined (F := Ideal) _ _ (ix3 (0 : Fin 1) r col) = resultArr m c (((cfg0.win 8).blk t).view.emb (ix3 (0 : Fin 1) r col))
  rw [out_emb]
  unfold resultArr
  rcases col_cases col with ⟨d, rfl⟩ | ⟨d, rfl⟩
  · rw [joined_left, result_left]
    exact fwd_half_apply m c t r d
  · rw [joined_right, result_right]
    exact bwd_half_apply m c t r d

end Cert.KernelIdeal.PointValue

end
-- ==== Proof.FinalValue.lean ====
/-
  The output array after the run is the specified result.

  The 16 points' blocks tile the output: entry `(b, n, col)` lies in the block of point `2·b + n / 1024`. Every point
  writes back its block of the specified result, so the array ends holding it everywhere.
-/
import proofs.«129078_g44976897524696_cont_8to1c4_646_23_alg».proof.Proof.PointValue

set_option maxRecDepth 16384

noncomputable section

namespace Cert.KernelIdeal.FinalValue

open Cert.KernelIdeal Cert.KernelIdeal.Gen Cert.KernelIdeal.BlockReads Cert.KernelIdeal.PointValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- An entry of the array is in point `t`'s block iff each coordinate is in the block's range on its axis. -/
theorem mem_blk (t : Fin cfg0.N) (i : S8x2048x128.Idx) :
    i ∈ ((cfg0.win 8).blk t).view.set ↔ ∀ a : Fin 3, win0_8.index t a * S1x1024x128.size a ≤ (i a).val
      ∧ (i a).val < win0_8.index t a * S1x1024x128.size a + S1x1024x128.size a := by
  show i ∈ ((View.whole main_v0).slice (win0_8.rect t)).set ↔ _
  rw [View.set_slice_whole, Rect.mem_set_unit]
  exact Iff.rfl

/-- Every entry of the output array is in some point's block. -/
theorem covered (i : S8x2048x128.Idx) :
    ∃ t : Fin cfg0.N, (cfg0.win 8).flush t = true ∧ i ∈ ((cfg0.win 8).blk t).view.set := by
  have h0 : (i 0).val < 8 := (i 0).isLt
  have h1 : (i 1).val < 2048 := (i 1).isLt
  have h2 : (i 2).val < 128 := (i 2).isLt
  have hN : cfg0.N = 16 := N_0
  have ht : 2 * (i 0).val + (i 1).val / 1024 < cfg0.N := by omega
  obtain ⟨-, -, -, -, -, -, -, -, -, -, -, -, -, -, -, -, -, -, -, -, e0, e1, e2⟩ := index_facts ⟨2 * (i 0).val + (i 1).val / 1024, ht⟩
  have tv : (⟨2 * (i 0).val + (i 1).val / 1024, ht⟩ : Fin cfg0.N).val = 2 * (i 0).val + (i 1).val / 1024 := rfl
  rw [tv] at e0 e1
  refine ⟨⟨2 * (i 0).val + (i 1).val / 1024, ht⟩, flush0_8 _, (mem_blk _ i).mpr fun a => ?_⟩
  match a with
  | ⟨0, _⟩ =>
    show win0_8.index ⟨2 * (i 0).val + (i 1).val / 1024, ht⟩ (0 : Fin 3) * 1 ≤ (i 0).val
      ∧ (i 0).val < win0_8.index ⟨2 * (i 0).val + (i 1).val / 1024, ht⟩ (0 : Fin 3) * 1 + 1
    omega
  | ⟨1, _⟩ =>
    show win0_8.index ⟨2 * (i 0).val + (i 1).val / 1024, ht⟩ (1 : Fin 3) * 1024 ≤ (i 1).val
      ∧ (i 1).val < win0_8.index ⟨2 * (i 0).val + (i 1).val / 1024, ht⟩ (1 : Fin 3) * 1024 + 1024
    omega
  | ⟨2, _⟩ =>
    show win0_8.index ⟨2 * (i 0).val + (i 1).val / 1024, ht⟩ (2 : Fin 3) * 128 ≤ (i 2).val
      ∧ (i 2).val < win0_8.index ⟨2 * (i 0).val + (i 1).val / 1024, ht⟩ (2 : Fin 3) * 128 + 128
    omega

/-- THE ARRAY after the run is the specified result of the argument arrays. -/
theorem final (c : Dev nD) : (dats m 0 c).arrAt 8 cfg0.N = resultArr m c :=
  (dats m 0 c).arrAt_eq_of_cover 8 (resultArr m c) (fun t _ => flushed_eq m c t) covered

/-- The kernel's run: the result array ends at the specified result, the arguments unchanged. -/
theorem run : θ_run defs (onTc (τ := τ) (main (F := Ideal))) ⟨m, fun _ => 0, ρ⟩ fun r => ∀ c : Dev nD,
      r.2.mem ((c : Thread nD τ).loc main_v0) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.KernelIdeal.FinalValue

end
-- ==== Proof.lean ====
/-
  Two programs for attention over the nodes of a graph, equal on the extended reals.

  For eight batches of 2048 nodes with 64 features each, both programs project the node features by a weight and a
  bias, `h = x·W + β`, aggregate the projections over an adjacency, `α = A·h`, turn each node's 64 scores into
  softmax weights `exp (α − max α) / ∑ exp (α − max α)` and scale the node's dynamic features by them, once for a
  forward and once for a backward adjacency with its own weight and bias, and return the two results side by side.

  The reference does this with whole-array host operations. The kernel streams blocks of 1024 adjacency rows through
  a grid of 8 × 2 points, keeps the two projections of the current batch in scratch arrays that the batch's first
  point fills and its second point reuses, and reads the node and dynamic features in feature-major form.

  Entry by entry both are one function of the argument arrays (`NodeAttention.result`): the products are the same sums
  over the same index sets, the row maximum is the same fold of `max` from `−∞` (the reference takes one more `max`
  with `−∞`, which changes nothing), and the exponential, the quotient and the product are the same operations. No
  algebraic law that could fail at an infinity is used, so the inputs' finiteness is never opened.

  The kernel's frames are the generated ones; the reference's frame is its run with the result dropped; the
  idealization rewrote nothing, so `preserves` has nothing to state.
-/
import proofs.«129078_g44976897524696_cont_8to1c4_646_23_alg».proof.Defs
import proofs.«129078_g44976897524696_cont_8to1c4_646_23_alg».proof.Proof.Gen.Kernel
import proofs.«129078_g44976897524696_cont_8to1c4_646_23_alg».proof.Proof.Gen.Kernel.Skeleton
import proofs.«129078_g44976897524696_cont_8to1c4_646_23_alg».proof.Proof.Gen.Kernel.Launch
import proofs.«129078_g44976897524696_cont_8to1c4_646_23_alg».proof.Proof.Gen.Kernel.Points
import proofs.«129078_g44976897524696_cont_8to1c4_646_23_alg».proof.Proof.Gen.Kernel.Frame
import proofs.«129078_g44976897524696_cont_8to1c4_646_23_alg».proof.Proof.Gen.KernelIdeal
import proofs.«129078_g44976897524696_cont_8to1c4_646_23_alg».proof.Proof.Gen.KernelIdeal.Skeleton
import proofs.«129078_g44976897524696_cont_8to1c4_646_23_alg».proof.Proof.Gen.KernelIdeal.Launch
import proofs.«129078_g44976897524696_cont_8to1c4_646_23_alg».proof.Proof.Gen.KernelIdeal.Points
import proofs.«129078_g44976897524696_cont_8to1c4_646_23_alg».proof.Proof.Gen.KernelIdeal.Frame
import proofs.«129078_g44976897524696_cont_8to1c4_646_23_alg».proof.Proof.Gen.ReferenceIdeal
import proofs.«129078_g44976897524696_cont_8to1c4_646_23_alg».proof.Proof.Gen.Pre_finite_inputs
import proofs.«129078_g44976897524696_cont_8to1c4_646_23_alg».proof.Proof.Gen.KernelIdeal.Value
import proofs.«129078_g44976897524696_cont_8to1c4_646_23_alg».proof.Proof.RefRun
import proofs.«129078_g44976897524696_cont_8to1c4_646_23_alg».proof.Proof.RefRead
import proofs.«129078_g44976897524696_cont_8to1c4_646_23_alg».proof.Proof.RefValue
import proofs.«129078_g44976897524696_cont_8to1c4_646_23_alg».proof.Proof.FinalValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the specified result of the kernel's arguments. -/
theorem algebraic : Cert.algebraic_KernelIdeal_ReferenceIdeal := by
  intro m ρ m' ρ' _ hagree
  refine ⟨fun c => Cert.KernelIdeal.PointValue.resultArr m c, Cert.KernelIdeal.FinalValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.reference_is_result]
  obtain ⟨a0, a1, a2, a3, a4, a5, a6, a7⟩ := hagree c
  rw [a0, a1, a2, a3, a4, a5, a6, a7]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
